-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg9 : FVec F S128x47 .f32) (main_arg10 : FVec F S128x47 .f32) (main_arg11 : FVec F S47 .f32) (main_v33 : IVec S_ 1) : IVec S_ 1 :=
  let main_v34 : FVec F S128x47 .f32 := Host.absf main_arg9
  let main_cst_12 : FVec F S_ .f32 := constant S_ .f32 0x7F800000#32
  let main_v35 : FVec F S128x47 .f32 := broadcastInDim S128x47 ![] bcast_S_S128x47 main_cst_12
  let main_v36 : IVec S128x47 1 := cmpf .olt main_v34 main_v35
  let main_c_13 : IVec S_ 1 := constantI S_ 1 1#1
  let main_v37 : IVec S_ 1 := (fun x v => Host.reduce IntOp.andi x v reducesTo_S128x47_S_d0_1 h_S_) main_v36 main_c_13
  let main_v38 : IVec S_ 1 := andi main_v33 main_v37
  let main_v39 : FVec F S128x47 .f32 := Host.absf main_arg10
  let main_cst_14 : FVec F S_ .f32 := constant S_ .f32 0x7F800000#32
  let main_v40 : FVec F S128x47 .f32 := broadcastInDim S128x47 ![] bcast_S_S128x47 main_cst_14
  let main_v41 : IVec S128x47 1 := cmpf .olt main_v39 main_v40
  let main_c_15 : IVec S_ 1 := constantI S_ 1 1#1
  let main_v42 : IVec S_ 1 := (fun x v => Host.reduce IntOp.andi x v reducesTo_S128x47_S_d0_1 h_S_) main_v41 main_c_15
  let main_v43 : IVec S_ 1 := andi main_v38 main_v42
  let main_v44 : FVec F S47 .f32 := Host.absf main_arg11
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x47 .f32) (main_arg10 : FVec F S128x47 .f32) (main_arg11 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x47 .f32) (main_arg10 : FVec F S128x47 .f32) (main_arg11 : FVec F S47 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S1x128 : Shape := ⟨2, ![1, 128]⟩
abbrev S50000x47 : Shape := ⟨2, ![50000, 47]⟩
abbrev S5000x47 : Shape := ⟨2, ![5000, 47]⟩
abbrev S1x47 : Shape := ⟨2, ![1, 47]⟩

abbrev nBuf : Space → Nat
  | .hbm => 73
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x47, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x47, .f32⟩
  | .local _ .vmem, ⟨23, _⟩ => ⟨S128x47, .f32⟩
  | .local _ .vmem, ⟨24, _⟩ => ⟨S47, .f32⟩
  | .local _ .vmem, ⟨25, _⟩ => ⟨S5000x47, .f32⟩
  | .local _ .vmem, ⟨26, _⟩ => ⟨S5000x47, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x47_S128x47_0_0 : ∀ a, (![0, 0] : Fin 2 → Nat) a + S128x47.size a ≤ S128x47.size a
  h_S128x47 : 0 < S128x47.numel
  inb_S47_S47_0 : ∀ a, (![0] : Fin 1 → Nat) a + S47.size a ≤ S47.size a
  h_S47 : 0 < S47.numel
  shapeCasts_S47_S1x47 : S47.ShapeCasts S1x47
  broadcasts_S1x47_S5000x47 : S1x47.Broadcasts S5000x47
  inb_S5000x47_S5000x47_0_0 : ∀ a, (![0, 0] : Fin 2 → Nat) a + S5000x47.size a ≤ S5000x47.size a
  h_S5000x47 : 0 < S5000x47.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x47.size a ≤ S128x47.size a
  hwx2_2 : ∀ i : grid2.Coords, EltTy.bits .f32 = 32 ∨ (Rect.block (s := S128x47) S128x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x47.size a ≤ S128x47.size a
  hwx2_3 : ∀ i : grid2.Coords, EltTy.bits .f32 = 32 ∨ (Rect.block (s := S128x47) S128x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S47.size a ≤ S47.size a
  hwx2_4 : ∀ i : grid2.Coords, EltTy.bits .f32 = 32 ∨ (Rect.block (s := S47) S47.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x47.size a ≤ S50000x47.size a
  hwx2_5 : ∀ i : grid2.Coords, EltTy.bits .f32 = 32 ∨ (Rect.block (s := S50000x47) S5000x47.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S5000x47.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x47 : Shape := ⟨2, ![50000, 47]⟩
abbrev S1x47 : Shape := ⟨2, ![1, 47]⟩

abbrev nBuf : Space → Nat
  | .hbm => 94
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x47, .f32⟩
  | .hbm, ⟨89, _⟩ => ⟨S50000x47, .f32⟩
  | .hbm, ⟨90, _⟩ => ⟨S50000x47, .f32⟩
  | .hbm, ⟨91, _⟩ => ⟨S1x47, .f32⟩
  | .hbm, ⟨92, _⟩ => ⟨S50000x47, .f32⟩
  | .hbm, ⟨93, _⟩ => ⟨S50000x47, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_cst : Ref sig .tc := ⟨.hbm, 70, rfl⟩
abbrev main_call1_v0 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x47_S50000x47_1_0_0_1_n_n_wf : DotDims.WF S50000x128 S128x47 S50000x47 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf

class Facts : Prop extends Facts₀ where

variable [Facts]
-- ==== Proof.Products.lean ====
/- Matrix products read at an entry.

  Over the extended reals a matrix product into a zero accumulator, and the host's product with no accumulator, are both
  the plain sum  (l · r)(p, q) = Σₖ l(p, k) · r(k, q)  over the one contracted axis, here of length 128. The dimension
  record of each product says, per operand axis, whether the output's coordinate or the contraction's is read there; the
  four short lemmas of each record read those answers off, and the sum over the record's contraction indices is carried
  to a sum over k < 128 along the bijection between them.

  Stated for the kernel's two block products (5000 rows at a time, 128 and 47 columns) and for the reference's two whole
  products (50000 rows): the four sums have the same summand, which is what lets a row block of the product be read as
  the product of the row block.
-/
import proofs.«429962_j83227876262250_1_alg».proof.Proof.Gen.KernelIdeal
import proofs.«429962_j83227876262250_1_alg».proof.Proof.Gen.ReferenceIdeal
import Idealize.ShloMosaic.Lib.ValueIdx
import Idealize.ShloMosaic.PureOps.Ideal.Laws

noncomputable section

open Idealize.ShloMosaic Idealize.ShloMosaic.ValueIdx

namespace Cert.KernelIdeal.Products

open Cert.KernelIdeal Cert.KernelIdeal.Facts₀ Cert.KernelIdeal.Facts

/-! ### A row block's product, 128 columns -/

theorem lhs_block128_0 (i : S5000x128.Idx) (s : dot_S5000x128_S128x128_S5000x128_1_0_0_1_n_n.contr.Idx) :
    (dot_S5000x128_S128x128_S5000x128_1_0_0_1_n_n.lhsIdx i s 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_block128_1 (i : S5000x128.Idx) (s : dot_S5000x128_S128x128_S5000x128_1_0_0_1_n_n.contr.Idx) :
    (dot_S5000x128_S128x128_S5000x128_1_0_0_1_n_n.lhsIdx i s 1).val = (s ⟨0, by decide⟩).val :=
  dot_S5000x128_S128x128_S5000x128_1_0_0_1_n_n.lhsIdx_val_of_single rfl i s
theorem rhs_block128_0 (i : S5000x128.Idx) (s : dot_S5000x128_S128x128_S5000x128_1_0_0_1_n_n.contr.Idx) :
    (dot_S5000x128_S128x128_S5000x128_1_0_0_1_n_n.rhsIdx i s 0).val = (s ⟨0, by decide⟩).val :=
  dot_S5000x128_S128x128_S5000x128_1_0_0_1_n_n.rhsIdx_val_of_single rfl i s
theorem rhs_block128_1 (i : S5000x128.Idx) (s : dot_S5000x128_S128x128_S5000x128_1_0_0_1_n_n.contr.Idx) :
    (dot_S5000x128_S128x128_S5000x128_1_0_0_1_n_n.rhsIdx i s 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times a 128 × 128 matrix, accumulated from zero, at (p, q): the sum over k of l(p, k) · r(k, q). -/
theorem block128_apply {φ₁ φ₂ : FTy} (l : FVec Ideal S5000x128 φ₁) (r : FVec Ideal S128x128 φ₂) (p : Fin 5000) (q : Fin 128) :
    FloatOps.matmul dot_S5000x128_S128x128_S5000x128_1_0_0_1_n_n none l r (constant S5000x128 .f32 0x00000000#32) (ix2 p q) = ∑ k : Fin 128, l (ix2 p k) * r (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_block128_0 _ _
    | ⟨1, _⟩ => exact (lhs_block128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_block128_0 _ _).trans hk
    | ⟨1, _⟩ => exact rhs_block128_1 _ _)
  rw [el, er]

/-! ### A row block's product, 47 columns -/

theorem lhs_block47_0 (i : S5000x47.Idx) (s : dot_S5000x128_S128x47_S5000x47_1_0_0_1_n_n.contr.Idx) :
    (dot_S5000x128_S128x47_S5000x47_1_0_0_1_n_n.lhsIdx i s 0).val = (i 0).val := by
  unfold DotDims.lhsIdx
  rw [dif_neg (show ¬(0 : Fin S5000x128.rank) ∈ dot_S5000x128_S128x47_S5000x47_1_0_0_1_n_n.lhsBatch by decide), dif_pos (show (0 : Fin S5000x128.rank) ∈ dot_S5000x128_S128x47_S5000x47_1_0_0_1_n_n.lhsNonContracting by decide)]
  rfl
theorem lhs_block47_1 (i : S5000x47.Idx) (s : dot_S5000x128_S128x47_S5000x47_1_0_0_1_n_n.contr.Idx) :
    (dot_S5000x128_S128x47_S5000x47_1_0_0_1_n_n.lhsIdx i s 1).val = (s ⟨0, by decide⟩).val :=
  dot_S5000x128_S128x47_S5000x47_1_0_0_1_n_n.lhsIdx_val_of_single rfl i s
theorem rhs_block47_0 (i : S5000x47.Idx) (s : dot_S5000x128_S128x47_S5000x47_1_0_0_1_n_n.contr.Idx) :
    (dot_S5000x128_S128x47_S5000x47_1_0_0_1_n_n.rhsIdx i s 0).val = (s ⟨0, by decide⟩).val :=
  dot_S5000x128_S128x47_S5000x47_1_0_0_1_n_n.rhsIdx_val_of_single rfl i s
theorem rhs_block47_1 (i : S5000x47.Idx) (s : dot_S5000x128_S128x47_S5000x47_1_0_0_1_n_n.contr.Idx) :
    (dot_S5000x128_S128x47_S5000x47_1_0_0_1_n_n.rhsIdx i s 1).val = (i 1).val := by
  unfold DotDims.rhsIdx
  rw [dif_neg (show ¬(1 : Fin S128x47.rank) ∈ dot_S5000x128_S128x47_S5000x47_1_0_0_1_n_n.rhsBatch by decide), dif_pos (show (1 : Fin S128x47.rank) ∈ dot_S5000x128_S128x47_S5000x47_1_0_0_1_n_n.rhsNonContracting by decide)]
  rfl

/-- A block of 5000 rows times a 128 × 47 matrix, accumulated from zero, at (p, q): the sum over k of l(p, k) · r(k, q). -/
theorem block47_apply {φ₁ φ₂ : FTy} (l : FVec Ideal S5000x128 φ₁) (r : FVec Ideal S128x47 φ₂) (p : Fin 5000) (q : Fin 47) :
    FloatOps.matmul dot_S5000x128_S128x47_S5000x47_1_0_0_1_n_n none l r (constant S5000x47 .f32 0x00000000#32) (ix2 p q) = ∑ k : Fin 128, l (ix2 p k) * r (ix2 k q) := by
  rw [Ideal.matmul_constant_zero_apply, ← Equiv.sum_comp (ValueIdx.contrEquiv1 dot_S5000x128_S128x47_S5000x47_1_0_0_1_n_n 128 rfl rfl).symm]
  refine Finset.sum_congr rfl fun k _ => ?_
  have hk := ValueIdx.contrEquiv1_symm_val dot_S5000x128_S128x47_S5000x47_1_0_0_1_n_n 128 rfl rfl k
  have el : dot_S5000x128_S128x47_S5000x47_1_0_0_1_n_n.lhsIdx (ix2 p q) ((ValueIdx.contrEquiv1 dot_S5000x128_S128x47_S5000x47_1_0_0_1_n_n 128 rfl rfl).symm k) = ix2 p k := funext fun a => Fin.ext (by
    match a with
    | ⟨0, _⟩ => exact lhs_block47_0 _ _
    | ⟨1, _⟩ => exact (lhs_block47_1 _ _).trans hk)
  have er : dot_S5000x128_S128x47_S5000x47_1_0_0_1_n_n.rhsIdx (ix2 p q) ((ValueIdx.contrEquiv1 dot_S5000x128_S128x47_S5000x47_1_0_0_1_n_n 128 rfl rfl).symm k) = ix2 k q := funext fun a => Fin.ext (by
    match a with
    | ⟨0, _⟩ => exact (rhs_block47_0 _ _).trans hk
    | ⟨1, _⟩ => exact rhs_block47_1 _ _)
  rw [el, er]

end Cert.KernelIdeal.Products

namespace Cert.ReferenceIdeal.Products

open Cert.ReferenceIdeal Cert.ReferenceIdeal.Facts₀ Cert.ReferenceIdeal.Facts

/-! ### The whole product, 128 columns -/

theorem lhs_whole128_0 (i : S50000x128.Idx) (s : dot_S50000x128_S128x128_S50000x128_1_0_0_1_n_n.contr.Idx) :
    (dot_S50000x128_S128x128_S50000x128_1_0_0_1_n_n.lhsIdx i s 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_whole128_1 (i : S50000x128.Idx) (s : dot_S50000x128_S128x128_S50000x128_1_0_0_1_n_n.contr.Idx) :
    (dot_S50000x128_S128x128_S50000x128_1_0_0_1_n_n.lhsIdx i s 1).val = (s ⟨0, by decide⟩).val :=
  dot_S50000x128_S128x128_S50000x128_1_0_0_1_n_n.lhsIdx_val_of_single rfl i s
theorem rhs_whole128_0 (i : S50000x128.Idx) (s : dot_S50000x128_S128x128_S50000x128_1_0_0_1_n_n.contr.Idx) :
    (dot_S50000x128_S128x128_S50000x128_1_0_0_1_n_n.rhsIdx i s 0).val = (s ⟨0, by decide⟩).val :=
  dot_S50000x128_S128x128_S50000x128_1_0_0_1_n_n.rhsIdx_val_of_single rfl i s
theorem rhs_whole128_1 (i : S50000x128.Idx) (s : dot_S50000x128_S128x128_S50000x128_1_0_0_1_n_n.contr.Idx) :
    (dot_S50000x128_S128x128_S50000x128_1_0_0_1_n_n.rhsIdx i s 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The 50000 × 128 by 128 × 128 product at (p, q): the sum over k of l(p, k) · r(k, q). -/
theorem whole128_apply {φ₁ φ₂ : FTy} (l : FVec Ideal S50000x128 φ₁) (r : FVec Ideal S128x128 φ₂) (p : Fin 50000) (q : Fin 128) :
    Host.dotGeneral dot_S50000x128_S128x128_S50000x128_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p q) ((ValueIdx.contrEquiv1 dot_S50000x128_S128x128_S50000x128_1_0_0_1_n_n 128 rfl rfl).symm k) = ix2 p k := funext fun a => Fin.ext (by
    match a with
    | ⟨0, _⟩ => exact lhs_whole128_0 _ _
    | ⟨1, _⟩ => exact (lhs_whole128_1 _ _).trans hk)
  have er : dot_S50000x128_S128x128_S50000x128_1_0_0_1_n_n.rhsIdx (ix2 p q) ((ValueIdx.contrEquiv1 dot_S50000x128_S128x128_S50000x128_1_0_0_1_n_n 128 rfl rfl).symm k) = ix2 k q := funext fun a => Fin.ext (by
    match a with
    | ⟨0, _⟩ => exact (rhs_whole128_0 _ _).trans hk
    | ⟨1, _⟩ => exact rhs_whole128_1 _ _)
  rw [el, er]

/-! ### The whole product, 47 columns -/

theorem lhs_whole47_0 (i : S50000x47.Idx) (s : dot_S50000x128_S128x47_S50000x47_1_0_0_1_n_n.contr.Idx) :
    (dot_S50000x128_S128x47_S50000x47_1_0_0_1_n_n.lhsIdx i s 0).val = (i 0).val := by
  unfold DotDims.lhsIdx
  rw [dif_neg (show ¬(0 : Fin S50000x128.rank) ∈ dot_S50000x128_S128x47_S50000x47_1_0_0_1_n_n.lhsBatch by decide), dif_pos (show (0 : Fin S50000x128.rank) ∈ dot_S50000x128_S128x47_S50000x47_1_0_0_1_n_n.lhsNonContracting by decide)]
  rfl
theorem lhs_whole47_1 (i : S50000x47.Idx) (s : dot_S50000x128_S128x47_S50000x47_1_0_0_1_n_n.contr.Idx) :
    (dot_S50000x128_S128x47_S50000x47_1_0_0_1_n_n.lhsIdx i s 1).val = (s ⟨0, by decide⟩).val :=
  dot_S50000x128_S128x47_S50000x47_1_0_0_1_n_n.lhsIdx_val_of_single rfl i s
theorem rhs_whole47_0 (i : S50000x47.Idx) (s : dot_S50000x128_S128x47_S50000x47_1_0_0_1_n_n.contr.Idx) :
    (dot_S50000x128_S128x47_S50000x47_1_0_0_1_n_n.rhsIdx i s 0).val = (s ⟨0, by decide⟩).val :=
  dot_S50000x128_S128x47_S50000x47_1_0_0_1_n_n.rhsIdx_val_of_single rfl i s
theorem rhs_whole47_1 (i : S50000x47.Idx) (s : dot_S50000x128_S128x47_S50000x47_1_0_0_1_n_n.contr.Idx) :
    (dot_S50000x128_S128x47_S50000x47_1_0_0_1_n_n.rhsIdx i s 1).val = (i 1).val := by
  unfold DotDims.rhsIdx
  rw [dif_neg (show ¬(1 : Fin S128x47.rank) ∈ dot_S50000x128_S128x47_S50000x47_1_0_0_1_n_n.rhsBatch by decide), dif_pos (show (1 : Fin S128x47.rank) ∈ dot_S50000x128_S128x47_S50000x47_1_0_0_1_n_n.rhsNonContracting by decide)]
  rfl

/-- The 50000 × 128 by 128 × 47 product at (p, q): the sum over k of l(p, k) · r(k, q). -/
theorem whole47_apply {φ₁ φ₂ : FTy} (l : FVec Ideal S50000x128 φ₁) (r : FVec Ideal S128x47 φ₂) (p : Fin 50000) (q : Fin 47) :
    Host.dotGeneral dot_S50000x128_S128x47_S50000x47_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S50000x128_S128x47_S50000x47_1_0_0_1_n_n 128 rfl rfl).symm]
  refine Finset.sum_congr rfl fun k _ => ?_
  have hk := ValueIdx.contrEquiv1_symm_val dot_S50000x128_S128x47_S50000x47_1_0_0_1_n_n 128 rfl rfl k
  have el : dot_S50000x128_S128x47_S50000x47_1_0_0_1_n_n.lhsIdx (ix2 p q) ((ValueIdx.contrEquiv1 dot_S50000x128_S128x47_S50000x47_1_0_0_1_n_n 128 rfl rfl).symm k) = ix2 p k := funext fun a => Fin.ext (by
    match a with
    | ⟨0, _⟩ => exact lhs_whole47_0 _ _
    | ⟨1, _⟩ => exact (lhs_whole47_1 _ _).trans hk)
  have er : dot_S50000x128_S128x47_S50000x47_1_0_0_1_n_n.rhsIdx (ix2 p q) ((ValueIdx.contrEquiv1 dot_S50000x128_S128x47_S50000x47_1_0_0_1_n_n 128 rfl rfl).symm k) = ix2 k q := funext fun a => Fin.ext (by
    match a with
    | ⟨0, _⟩ => exact (rhs_whole47_0 _ _).trans hk
    | ⟨1, _⟩ => exact rhs_whole47_1 _ _)
  rw [el, er]

end Cert.ReferenceIdeal.Products

end
-- ==== Proof.Model.lean ====
/-
  Three GraphSAGE layers with a mean aggregator, as whole-array functions of the inputs.

  With edges (src e → dst e), e < 800000, over 50000 nodes:
    * the in-degree of node v is the number of edges with dst e = v; its reciprocal, the degree clamped below at 1,
      is kept as a column (`invDeg`);
    * the neighbour mean of a feature matrix h (`aggregate`) is the row-wise sum of h[src e] over the edges into each
      node, each row scaled by that column. A negative source index is first wrapped once by the node count;
    * a hidden layer is max(h·Ws + agg·Wn + b, 0) (`hidden`), the last layer the same without the maximum (`logits`).
  The model (`sage`) feeds each layer's output to the next one's aggregation and product.

  Every function is stated over any float instance; the proof reads them at the extended reals.
-/
import proofs.«429962_j83227876262250_1_alg».proof.Proof.Gen.ReferenceIdeal

noncomputable section

open Idealize.ShloMosaic

namespace Cert.Sage

open Cert.ReferenceIdeal Cert.ReferenceIdeal.Facts₀ Cert.ReferenceIdeal.Facts

variable {F : FTy → Type} [FloatOps F]

/-- The column 1 / max(deg v, 1), deg v the number of edges into node v. -/
def invDeg (dst : (⟨S800000, .i32⟩ : BufTy).Contents (Elt F)) : (⟨S50000x1, .f32⟩ : BufTy).Contents (Elt F) :=
  broadcastInDim S50000x1 ![0] bcast_S50000_S50000x1_0 (Host.divf (broadcastInDim S50000 ![] bcast_S_S50000 (constant S_ .f32 0x3F800000#32)) (maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32))))

/-- Row v: the sum of h[src e] over the edges e into v, scaled by the column's entry at v. -/
def aggregateBy (h : (⟨S50000x128, .f32⟩ : BufTy).Contents (Elt F)) (src dst : (⟨S800000, .i32⟩ : BufTy).Contents (Elt F)) (col : (⟨S50000x1, .f32⟩ : BufTy).Contents (Elt F)) : (⟨S50000x128, .f32⟩ : BufTy).Contents (Elt F) :=
  mulf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x128 ![0, 1] bcast_S50000x1_S50000x128_0_1 col)

/-- The neighbour mean: `aggregateBy` at the reciprocal-degree column. -/
def aggregate (h : (⟨S50000x128, .f32⟩ : BufTy).Contents (Elt F)) (src dst : (⟨S800000, .i32⟩ : BufTy).Contents (Elt F)) : (⟨S50000x128, .f32⟩ : BufTy).Contents (Elt F) :=
  aggregateBy h src dst (invDeg dst)

/-- h·Ws + agg·Wn + b, the bias along the rows, 128 output features. -/
def affine128 (h agg : (⟨S50000x128, .f32⟩ : BufTy).Contents (Elt F)) (ws wn : (⟨S128x128, .f32⟩ : BufTy).Contents (Elt F)) (b : (⟨S128, .f32⟩ : BufTy).Contents (Elt F)) : (⟨S50000x128, .f32⟩ : BufTy).Contents (Elt F) :=
  addf (addf (Host.dotGeneral dot_S50000x128_S128x128_S50000x128_1_0_0_1_n_n none h ws) (Host.dotGeneral dot_S50000x128_S128x128_S50000x128_1_0_0_1_n_n none agg wn)) (broadcastInDim S50000x128 ![0, 1] bcast_S1x128_S50000x128_0_1 (broadcastInDim S1x128 ![1] bcast_S128_S1x128_1 b))

/-- A hidden layer: the positive part of `affine128`. -/
def hidden (h agg : (⟨S50000x128, .f32⟩ : BufTy).Contents (Elt F)) (ws wn : (⟨S128x128, .f32⟩ : BufTy).Contents (Elt F)) (b : (⟨S128, .f32⟩ : BufTy).Contents (Elt F)) : (⟨S50000x128, .f32⟩ : BufTy).Contents (Elt F) :=
  maximumf (affine128 h agg ws wn b) (broadcastInDim S50000x128 ![] bcast_S_S50000x128 (constant S_ .f32 0x00000000#32))

/-- The last layer: h·Ws + agg·Wn + b with 47 output features and no maximum. -/
def logits (h agg : (⟨S50000x128, .f32⟩ : BufTy).Contents (Elt F)) (ws wn : (⟨S128x47, .f32⟩ : BufTy).Contents (Elt F)) (b : (⟨S47, .f32⟩ : BufTy).Contents (Elt F)) : (⟨S50000x47, .f32⟩ : BufTy).Contents (Elt F) :=
  addf (addf (Host.dotGeneral dot_S50000x128_S128x47_S50000x47_1_0_0_1_n_n none h ws) (Host.dotGeneral dot_S50000x128_S128x47_S50000x47_1_0_0_1_n_n none agg wn)) (broadcastInDim S50000x47 ![0, 1] bcast_S1x47_S50000x47_0_1 (broadcastInDim S1x47 ![1] bcast_S47_S1x47_1 b))

/-- The first hidden layer's output. -/
def sageH1 (x : (⟨S50000x128, .f32⟩ : BufTy).Contents (Elt F)) (src dst : (⟨S800000, .i32⟩ : BufTy).Contents (Elt F)) (ws0 wn0 : (⟨S128x128, .f32⟩ : BufTy).Contents (Elt F)) (b0 : (⟨S128, .f32⟩ : BufTy).Contents (Elt F)) : (⟨S50000x128, .f32⟩ : BufTy).Contents (Elt F) :=
  hidden x (aggregate x src dst) ws0 wn0 b0

/-- The second hidden layer's output. -/
def sageH2 (x : (⟨S50000x128, .f32⟩ : BufTy).Contents (Elt F)) (src dst : (⟨S800000, .i32⟩ : BufTy).Contents (Elt F)) (ws0 wn0 : (⟨S128x128, .f32⟩ : BufTy).Contents (Elt F)) (b0 : (⟨S128, .f32⟩ : BufTy).Contents (Elt F)) (ws1 wn1 : (⟨S128x128, .f32⟩ : BufTy).Contents (Elt F)) (b1 : (⟨S128, .f32⟩ : BufTy).Contents (Elt F)) : (⟨S50000x128, .f32⟩ : BufTy).Contents (Elt F) :=
  hidden (sageH1 x src dst ws0 wn0 b0) (aggregate (sageH1 x src dst ws0 wn0 b0) src dst) ws1 wn1 b1

/-- The model's output: the last layer over the second hidden layer. -/
def sage (x : (⟨S50000x128, .f32⟩ : BufTy).Contents (Elt F)) (src dst : (⟨S800000, .i32⟩ : BufTy).Contents (Elt F)) (ws0 wn0 : (⟨S128x128, .f32⟩ : BufTy).Contents (Elt F)) (b0 : (⟨S128, .f32⟩ : BufTy).Contents (Elt F)) (ws1 wn1 : (⟨S128x128, .f32⟩ : BufTy).Contents (Elt F)) (b1 : (⟨S128, .f32⟩ : BufTy).Contents (Elt F)) (ws2 wn2 : (⟨S128x47, .f32⟩ : BufTy).Contents (Elt F)) (b2 : (⟨S47, .f32⟩ : BufTy).Contents (Elt F)) : (⟨S50000x47, .f32⟩ : BufTy).Contents (Elt F) :=
  logits (sageH2 x src dst ws0 wn0 b0 ws1 wn1 b1) (aggregate (sageH2 x src dst ws0 wn0 b0 ws1 wn1 b1) src dst) ws2 wn2 b2

end Cert.Sage

end
-- ==== Proof.LayerAt.lean ====
/-
  One layer read at an entry, on both sides.

  At row p and column q a layer's output is
      max( Σₖ h(p, k) · Ws(k, q)  +  Σₖ agg(p, k) · Wn(k, q)  +  b(q),  0 )
  (without the maximum in the last layer). The model says so of the whole 50000-row arrays; the kernel's body says so of
  the 5000 rows it holds, with each operand first narrowed to a shorter float format, which changes no value over the
  extended reals, and the bias first made a one-row matrix and then repeated down the rows. Both readings are put in
  one and the same form, the instance's own maximum and sums around the two plain sums, so that they can be matched
  term for term once a block's rows are identified with the array's.
-/
import proofs.«429962_j83227876262250_1_alg».proof.Proof.Products
import proofs.«429962_j83227876262250_1_alg».proof.Proof.Model
import proofs.«429962_j83227876262250_1_alg».proof.Proof.Gen.KernelIdeal.Skeleton
import Idealize.ShloMosaic.Lib.Pipeline.Value
import Idealize.ShloMosaic.Lib.ValueLayout

noncomputable section

open Idealize.ShloMosaic Idealize.ShloMosaic.ValueIdx

namespace Cert.Sage.At

open Cert.ReferenceIdeal Cert.ReferenceIdeal.Facts₀ Cert.ReferenceIdeal.Facts

/-- The bias of 128 features, made a row and repeated over the 50000 rows, at (p, q) is b(q). -/
theorem bias128_at {α : Type} (b : S128.Idx → α) (p : Fin 50000) (q : Fin 128) :
    broadcastInDim S50000x128 ![0, 1] bcast_S1x128_S50000x128_0_1 (broadcastInDim S1x128 ![1] bcast_S128_S1x128_1 b) (ix2 p q) = b (ix1 q) := by
  rw [broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply _ bcast_S128_S1x128_1 b (ix2 (0 : Fin 1) q) (ix1 q) (fun a => match a with
    | ⟨0, _⟩ => by show q.val = if (128 : Nat) = 1 then 0 else q.val; rw [if_neg (by decide)])

/-- The bias of 47 features, likewise. -/
theorem bias47_at {α : Type} (b : S47.Idx → α) (p : Fin 50000) (q : Fin 47) :
    broadcastInDim S50000x47 ![0, 1] bcast_S1x47_S50000x47_0_1 (broadcastInDim S1x47 ![1] bcast_S47_S1x47_1 b) (ix2 p q) = b (ix1 q) := by
  rw [broadcastInDim_apply _ bcast_S1x47_S50000x47_0_1 _ (ix2 p q) (ix2 (0 : Fin 1) q) (fun a => match a with
    | ⟨0, _⟩ => by show 0 = if (1 : Nat) = 1 then 0 else p.val; rw [if_pos rfl]
    | ⟨1, _⟩ => by show q.val = if (47 : Nat) = 1 then 0 else q.val; rw [if_neg (by decide)])]
  exact broadcastInDim_apply _ bcast_S47_S1x47_1 b (ix2 (0 : Fin 1) q) (ix1 q) (fun a => match a with
    | ⟨0, _⟩ => by show q.val = if (47 : Nat) = 1 then 0 else q.val; rw [if_neg (by decide)])

/-- A hidden layer at (p, q). -/
theorem hidden_at (h agg : FVec Ideal S50000x128 .f32) (ws wn : FVec Ideal S128x128 .f32) (b : FVec Ideal S128 .f32) (p : Fin 50000) (q : Fin 128) :
    Cert.Sage.hidden (F := Ideal) h agg ws wn b (ix2 p q)
      = FloatOps.maximumf (FloatOps.addf (FloatOps.addf (∑ k : Fin 128, h (ix2 p k) * ws (ix2 k q)) (∑ k : Fin 128, agg (ix2 p k) * wn (ix2 k q))) (b (ix1 q))) (FloatOps.ofBits .f32 0x00000000#32) := by
  unfold Cert.Sage.hidden Cert.Sage.affine128
  show FloatOps.maximumf (FloatOps.addf (FloatOps.addf (Host.dotGeneral _ none h ws (ix2 p q)) (Host.dotGeneral _ none agg wn (ix2 p q))) (broadcastInDim S50000x128 ![0, 1] bcast_S1x128_S50000x128_0_1 (broadcastInDim S1x128 ![1] bcast_S128_S1x128_1 b) (ix2 p q))) (FloatOps.ofBits .f32 0x00000000#32) = _
  rw [Cert.ReferenceIdeal.Products.whole128_apply, Cert.ReferenceIdeal.Products.whole128_apply, bias128_at]

/-- The last layer at (p, q). -/
theorem logits_at (h agg : FVec Ideal S50000x128 .f32) (ws wn : FVec Ideal S128x47 .f32) (b : FVec Ideal S47 .f32) (p : Fin 50000) (q : Fin 47) :
    Cert.Sage.logits (F := Ideal) h agg ws wn b (ix2 p q)
      = FloatOps.addf (FloatOps.addf (∑ k : Fin 128, h (ix2 p k) * ws (ix2 k q)) (∑ k : Fin 128, agg (ix2 p k) * wn (ix2 k q))) (b (ix1 q)) := by
  unfold Cert.Sage.logits
  show FloatOps.addf (FloatOps.addf (Host.dotGeneral _ none h ws (ix2 p q)) (Host.dotGeneral _ none agg wn (ix2 p q))) (broadcastInDim S50000x47 ![0, 1] bcast_S1x47_S50000x47_0_1 (broadcastInDim S1x47 ![1] bcast_S47_S1x47_1 b) (ix2 p q)) = _
  rw [Cert.ReferenceIdeal.Products.whole47_apply, Cert.ReferenceIdeal.Products.whole47_apply, bias47_at]

end Cert.Sage.At

namespace Cert.KernelIdeal.At

open Cert.KernelIdeal Cert.KernelIdeal.Facts₀ Cert.KernelIdeal.Facts Cert.KernelIdeal.Gen

/-- The first region's body at (p, q) of its block. -/
theorem body0_at (x0 x1 : Vec Ideal S5000x128 .f32) (x2 x3 : Vec Ideal S128x128 .f32) (x4 : Vec Ideal S128 .f32) (p : Fin 5000) (q : Fin 128) :
    k0_pay1 (F := Ideal) x0 x1 x2 x3 x4 (ix2 p q)
      = FloatOps.maximumf (FloatOps.addf (FloatOps.addf (∑ k : Fin 128, x0 (ix2 p k) * x2 (ix2 k q)) (∑ k : Fin 128, x1 (ix2 p k) * x3 (ix2 k q))) (x4 (ix1 q))) (FloatOps.ofBits .f32 0x00000000#32) := by
  unfold k0_pay1
  show FloatOps.maximumf (F := Ideal) (FloatOps.addf (FloatOps.addf (FloatOps.matmul _ none (truncf .bf16 x0 _) (truncf .bf16 x2 _) (constant S5000x128 .f32 0x00000000#32) (ix2 p q)) (FloatOps.matmul _ none (truncf .bf16 (shapeCast S5000x128 x1 _) _) (truncf .bf16 x3 _) (constant S5000x128 .f32 0x00000000#32) (ix2 p q))) (broadcastTo S5000x128 (shapeCast S1x128 x4 _) _ (ix2 p q))) (FloatOps.ofBits .f32 0x00000000#32) = _
  rw [Cert.KernelIdeal.Products.block128_apply, Cert.KernelIdeal.Products.block128_apply, broadcastTo_1b_ab_apply, shapeCast_a_1a_apply, shapeCast_self]
  rfl

/-- The second region's body at (p, q) of its block. -/
theorem body1_at (x0 x1 : Vec Ideal S5000x128 .f32) (x2 x3 : Vec Ideal S128x128 .f32) (x4 : Vec Ideal S128 .f32) (p : Fin 5000) (q : Fin 128) :
    k1_pay1 (F := Ideal) x0 x1 x2 x3 x4 (ix2 p q)
      = FloatOps.maximumf (FloatOps.addf (FloatOps.addf (∑ k : Fin 128, x0 (ix2 p k) * x2 (ix2 k q)) (∑ k : Fin 128, x1 (ix2 p k) * x3 (ix2 k q))) (x4 (ix1 q))) (FloatOps.ofBits .f32 0x00000000#32) := by
  unfold k1_pay1
  show FloatOps.maximumf (F := Ideal) (FloatOps.addf (FloatOps.addf (FloatOps.matmul _ none (truncf .bf16 (shapeCast S5000x128 x0 _) _) (truncf .bf16 x2 _) (constant S5000x128 .f32 0x00000000#32) (ix2 p q)) (FloatOps.matmul _ none (truncf .bf16 (shapeCast S5000x128 x1 _) _) (truncf .bf16 x3 _) (constant S5000x128 .f32 0x00000000#32) (ix2 p q))) (broadcastTo S5000x128 (shapeCast S1x128 x4 _) _ (ix2 p q))) (FloatOps.ofBits .f32 0x00000000#32) = _
  rw [Cert.KernelIdeal.Products.block128_apply, Cert.KernelIdeal.Products.block128_apply, broadcastTo_1b_ab_apply, shapeCast_a_1a_apply, shapeCast_self, shapeCast_self]
  rfl

/-- The third region's body at (p, q) of its block: no maximum, 47 columns. -/
theorem body2_at (x0 x1 : Vec Ideal S5000x128 .f32) (x2 x3 : Vec Ideal S128x47 .f32) (x4 : Vec Ideal S47 .f32) (p : Fin 5000) (q : Fin 47) :
    k2_pay1 (F := Ideal) x0 x1 x2 x3 x4 (ix2 p q)
      = FloatOps.addf (FloatOps.addf (∑ k : Fin 128, x0 (ix2 p k) * x2 (ix2 k q)) (∑ k : Fin 128, x1 (ix2 p k) * x3 (ix2 k q))) (x4 (ix1 q)) := by
  unfold k2_pay1
  show FloatOps.addf (F := Ideal) (FloatOps.addf (FloatOps.matmul _ none (truncf .bf16 (shapeCast S5000x128 x0 _) _) (truncf .bf16 x2 _) (constant S5000x47 .f32 0x00000000#32) (ix2 p q)) (FloatOps.matmul _ none (truncf .bf16 (shapeCast S5000x128 x1 _) _) (truncf .bf16 x3 _) (constant S5000x47 .f32 0x00000000#32) (ix2 p q))) (broadcastTo S5000x47 (shapeCast S1x47 x4 _) _ (ix2 p q)) = _
  rw [Cert.KernelIdeal.Products.block47_apply, Cert.KernelIdeal.Products.block47_apply, broadcastTo_1b_ab_apply, shapeCast_a_1a_apply, shapeCast_self, shapeCast_self]
  rfl

end Cert.KernelIdeal.At

end
-- ==== Proof.Layer0.lean ====
/-
  What the first pallas call leaves in its output array.

  The call walks ten grid points. At point t it is handed rows 5000·t … 5000·t + 4999 of the layer's input and of its
  neighbour means (its first two operands), the two weight matrices and the bias whole, and writes back rows
  5000·t … 5000·t + 4999 of the output. The body's value at (p, q) of its block and the hidden layer's value at
  (5000·t + p, q) of the arrays are the same expression (one layer read at an entry) once the block's rows are read as
  the array's rows: a row block of a product is the product of the row block. The ten blocks tile the 50000 rows, so the
  output array ends holding the hidden layer of the arrays the call was entered with, whatever those are.
-/
import proofs.«429962_j83227876262250_1_alg».proof.Proof.Gen.KernelIdeal.Frame
import proofs.«429962_j83227876262250_1_alg».proof.Proof.LayerAt
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Layer0

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The index maps over the grid: the two row-tiled operands and the output take block t at point t, the weights and
    the bias always their one block; there are ten points. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ t.val < 10 :=
  (by decide +kernel : ∀ t : Fin grid0.N, _)

/-- The model's hidden layer of the arrays the region is entered with. -/
abbrev entered (c : Dev nD) : Buf (Elt Ideal) ((c : Thread nD τ).loc main_v21) :=
  Cert.Sage.hidden (F := Ideal) (V c main_arg0) (V c main_v20) (V c main_arg3) (V c main_arg4) (V c main_arg5)

/-- Row p of block t of the layer's input is row 5000·t + p of the array. -/
theorem rows_input (c : Dev nD) (t : Fin cfg0.N) (p : Fin 5000) (k : Fin 128) (r : Fin 50000) (hr : r.val = 5000 * t.val + p.val) :
    (iblk0 V c 0 t : Vec Ideal S5000x128 .f32) (ix2 p k) = (V c main_arg0 : S50000x128.Idx → Elt Ideal .f32) (ix2 r k) := by
  obtain ⟨e0, e1, -⟩ := index_maps t
  show V c main_arg0 (((cfg0.win 0).blk t).view.emb (ix2 p k)) = V c main_arg0 (ix2 r k)
  have h : ((cfg0.win 0).blk t).view.emb (ix2 p k) = ix2 r k := by
    funext a; apply Fin.ext
    match a with
    | ⟨0, _⟩ => show win0_0.index t (0 : Fin 2) * 5000 + 1 * p.val = r.val; omega
    | ⟨1, _⟩ => show win0_0.index t (1 : Fin 2) * 128 + 1 * k.val = k.val; omega
  rw [h]

/-- Row p of block t of the neighbour means is row 5000·t + p of the array. -/
theorem rows_means (c : Dev nD) (t : Fin cfg0.N) (p : Fin 5000) (k : Fin 128) (r : Fin 50000) (hr : r.val = 5000 * t.val + p.val) :
    (iblk0 V c 1 t : Vec Ideal S5000x128 .f32) (ix2 p k) = (V c main_v20 : S50000x128.Idx → Elt Ideal .f32) (ix2 r k) := by
  obtain ⟨-, -, e0, e1, -⟩ := index_maps t
  show V c main_v20 (((cfg0.win 1).blk t).view.emb (ix2 p k)) = V c main_v20 (ix2 r k)
  have h : ((cfg0.win 1).blk t).view.emb (ix2 p k) = ix2 r k := by
    funext a; apply Fin.ext
    match a with
    | ⟨0, _⟩ => show win0_1.index t (0 : Fin 2) * 5000 + 1 * p.val = r.val; omega
    | ⟨1, _⟩ => show win0_1.index t (1 : Fin 2) * 128 + 1 * k.val = k.val; omega
  rw [h]

/-- The self weights are handed over whole at every point. -/
theorem whole_self (c : Dev nD) (t : Fin cfg0.N) (k : Fin 128) (q : Fin 128) :
    (iblk0 V c 2 t : Vec Ideal S128x128 .f32) (ix2 k q) = (V c main_arg3 : S128x128.Idx → Elt Ideal .f32) (ix2 k q) := by
  obtain ⟨-, -, -, -, e0, e1, -⟩ := index_maps t
  show V c main_arg3 (((cfg0.win 2).blk t).view.emb (ix2 k q)) = V c main_arg3 (ix2 k q)
  have h : ((cfg0.win 2).blk t).view.emb (ix2 k q) = ix2 k q := by
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  rw [h]

/-- The neighbour weights are handed over whole at every point. -/
theorem whole_neigh (c : Dev nD) (t : Fin cfg0.N) (k : Fin 128) (q : Fin 128) :
    (iblk0 V c 3 t : Vec Ideal S128x128 .f32) (ix2 k q) = (V c main_arg4 : S128x128.Idx → Elt Ideal .f32) (ix2 k q) := by
  obtain ⟨-, -, -, -, -, -, e0, e1, -⟩ := index_maps t
  show V c main_arg4 (((cfg0.win 3).blk t).view.emb (ix2 k q)) = V c main_arg4 (ix2 k q)
  have h : ((cfg0.win 3).blk t).view.emb (ix2 k q) = ix2 k q := by
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  rw [h]

/-- The bias is handed over whole at every point. -/
theorem whole_bias (c : Dev nD) (t : Fin cfg0.N) (q : Fin 128) :
    (iblk0 V c 4 t : Vec Ideal S128 .f32) (ix1 q) = (V c main_arg5 : S128.Idx → Elt Ideal .f32) (ix1 q) := by
  obtain ⟨-, -, -, -, -, -, -, -, e0, -⟩ := index_maps t
  show V c main_arg5 (((cfg0.win 4).blk t).view.emb (ix1 q)) = V c main_arg5 (ix1 q)
  have h : ((cfg0.win 4).blk t).view.emb (ix1 q) = ix1 q := by
    funext a; apply Fin.ext
    match a with
    | ⟨0, _⟩ => show win0_4.index t (0 : Fin 1) * 128 + 1 * q.val = q.val; omega
  rw [h]

/-- What point t writes back is block t of the hidden layer of the entered arrays. -/
theorem written_back (c : Dev nD) (t : Fin cfg0.N) :
    (dat0 V c).flushed 5 t = ((cfg0.win 5).blk t).view.read (Elt Ideal) (entered V c) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S128x128) zero2, View.ld_unit_zero (S := S128) zero1]
  obtain ⟨-, -, -, -, -, -, -, -, -, e0, e1, ht⟩ := index_maps t
  funext j
  obtain ⟨p, q, rfl⟩ : ∃ (p : Fin 5000) (q : Fin 128), j = ix2 p q := ⟨j 0, j 1, eq_ix2 j⟩
  have hp : p.val < 5000 := p.isLt
  obtain ⟨r, hr⟩ : ∃ r : Fin 50000, r.val = 5000 * t.val + p.val := ⟨⟨5000 * t.val + p.val, by omega⟩, rfl⟩
  have hemb : ((cfg0.win 5).blk t).view.emb (ix2 p q) = ix2 r q := by
    funext a; apply Fin.ext
    match a with
    | ⟨0, _⟩ => show win0_5.index t (0 : Fin 2) * 5000 + 1 * p.val = r.val; omega
    | ⟨1, _⟩ => show win0_5.index t (1 : Fin 2) * 128 + 1 * q.val = q.val; omega
  show k0_pay1 (F := Ideal) (iblk0 V c 0 t) (iblk0 V c 1 t) (iblk0 V c 2 t) (iblk0 V c 3 t) (iblk0 V c 4 t) (ix2 p q) = entered V c (((cfg0.win 5).blk t).view.emb (ix2 p q))
  rw [hemb]
  refine (Cert.KernelIdeal.At.body0_at _ _ _ _ _ p q).trans ?_
  refine Eq.trans ?_ (Cert.Sage.At.hidden_at _ _ _ _ _ r q).symm
  refine congrArg (fun z => FloatOps.maximumf z _) ?_
  refine congrArg₂ FloatOps.addf (congrArg₂ FloatOps.addf (Finset.sum_congr rfl fun k _ => ?_) (Finset.sum_congr rfl fun k _ => ?_)) ?_
  · rw [rows_input V c t p k r hr, whole_self V c t k q]
  · rw [rows_means V c t p k r hr, whole_neigh V c t k q]
  · exact whole_bias V c t q

/-- An index of the array is in point t's block iff each coordinate is in the block's range. -/
theorem in_block (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21).slice (win0_5.rect t)).set ↔ _
  rw [View.set_slice_whole, Rect.mem_set_unit]
  exact Iff.rfl

/-- Every row is in the block of the point its number divided by 5000 names. -/
theorem tiled (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨-, -, -, -, -, -, -, -, -, e0, e1, -⟩ := index_maps t
  have ht : t.val = (i 0).val / 5000 := rfl
  refine ⟨t, flush0_5 t, ?_⟩
  rw [in_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region: the hidden layer of the arrays it was entered with. -/
theorem value (c : Dev nD) : (dat0 V c).arrAt 5 cfg0.N = entered V c :=
  (dat0 V c).arrAt_eq_of_cover 5 (entered V c) (fun t _ => written_back V c t) (tiled)

end Cert.KernelIdeal.Layer0

end
-- ==== Proof.Layer1.lean ====
/- What the second pallas call leaves in its output array.

  The call walks ten grid points. At point t it is handed rows 5000·t … 5000·t + 4999 of the layer's input and of its
  neighbour means (its first two operands), the two weight matrices and the bias whole, and writes back rows
  5000·t … 5000·t + 4999 of the output. The body's value at (p, q) of its block and the hidden layer's value at
  (5000·t + p, q) of the arrays are the same expression (one layer read at an entry) once the block's rows are read as
  the array's rows: a row block of a product is the product of the row block. The ten blocks tile the 50000 rows, so the
  output array ends holding the hidden layer of the arrays the call was entered with, whatever those are.
-/
import proofs.«429962_j83227876262250_1_alg».proof.Proof.Gen.KernelIdeal.Frame
import proofs.«429962_j83227876262250_1_alg».proof.Proof.LayerAt
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Layer1

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The index maps over the grid: the two row-tiled operands and the output take block t at point t, the weights and
    the bias always their one block; there are ten points. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ t.val < 10 :=
  (by decide +kernel : ∀ t : Fin grid1.N, _)

/-- The model's hidden layer of the arrays the region is entered with. -/
abbrev entered (c : Dev nD) : Buf (Elt Ideal) ((c : Thread nD τ).loc main_v34) :=
  Cert.Sage.hidden (F := Ideal) (V c main_v21) (V c main_v33) (V c main_arg6) (V c main_arg7) (V c main_arg8)

/-- Row p of block t of the layer's input is row 5000·t + p of the array. -/
theorem rows_input (c : Dev nD) (t : Fin cfg1.N) (p : Fin 5000) (k : Fin 128) (r : Fin 50000) (hr : r.val = 5000 * t.val + p.val) :
    (iblk1 V c 0 t : Vec Ideal S5000x128 .f32) (ix2 p k) = (V c main_v21 : S50000x128.Idx → Elt Ideal .f32) (ix2 r k) := by
  obtain ⟨e0, e1, -⟩ := index_maps t
  show V c main_v21 (((cfg1.win 0).blk t).view.emb (ix2 p k)) = V c main_v21 (ix2 r k)
  have h : ((cfg1.win 0).blk t).view.emb (ix2 p k) = ix2 r k := by
    funext a; apply Fin.ext
    match a with
    | ⟨0, _⟩ => show win1_0.index t (0 : Fin 2) * 5000 + 1 * p.val = r.val; omega
    | ⟨1, _⟩ => show win1_0.index t (1 : Fin 2) * 128 + 1 * k.val = k.val; omega
  rw [h]

/-- Row p of block t of the neighbour means is row 5000·t + p of the array. -/
theorem rows_means (c : Dev nD) (t : Fin cfg1.N) (p : Fin 5000) (k : Fin 128) (r : Fin 50000) (hr : r.val = 5000 * t.val + p.val) :
    (iblk1 V c 1 t : Vec Ideal S5000x128 .f32) (ix2 p k) = (V c main_v33 : S50000x128.Idx → Elt Ideal .f32) (ix2 r k) := by
  obtain ⟨-, -, e0, e1, -⟩ := index_maps t
  show V c main_v33 (((cfg1.win 1).blk t).view.emb (ix2 p k)) = V c main_v33 (ix2 r k)
  have h : ((cfg1.win 1).blk t).view.emb (ix2 p k) = ix2 r k := by
    funext a; apply Fin.ext
    match a with
    | ⟨0, _⟩ => show win1_1.index t (0 : Fin 2) * 5000 + 1 * p.val = r.val; omega
    | ⟨1, _⟩ => show win1_1.index t (1 : Fin 2) * 128 + 1 * k.val = k.val; omega
  rw [h]

/-- The self weights are handed over whole at every point. -/
theorem whole_self (c : Dev nD) (t : Fin cfg1.N) (k : Fin 128) (q : Fin 128) :
    (iblk1 V c 2 t : Vec Ideal S128x128 .f32) (ix2 k q) = (V c main_arg6 : S128x128.Idx → Elt Ideal .f32) (ix2 k q) := by
  obtain ⟨-, -, -, -, e0, e1, -⟩ := index_maps t
  show V c main_arg6 (((cfg1.win 2).blk t).view.emb (ix2 k q)) = V c main_arg6 (ix2 k q)
  have h : ((cfg1.win 2).blk t).view.emb (ix2 k q) = ix2 k q := by
    funext a; apply Fin.ext
    match a with
    | ⟨0, _⟩ => show win1_2.index t (0 : Fin 2) * 128 + 1 * k.val = k.val; omega
    | ⟨1, _⟩ => show win1_2.index t (1 : Fin 2) * 128 + 1 * q.val = q.val; omega
  rw [h]

/-- The neighbour weights are handed over whole at every point. -/
theorem whole_neigh (c : Dev nD) (t : Fin cfg1.N) (k : Fin 128) (q : Fin 128) :
    (iblk1 V c 3 t : Vec Ideal S128x128 .f32) (ix2 k q) = (V c main_arg7 : S128x128.Idx → Elt Ideal .f32) (ix2 k q) := by
  obtain ⟨-, -, -, -, -, -, e0, e1, -⟩ := index_maps t
  show V c main_arg7 (((cfg1.win 3).blk t).view.emb (ix2 k q)) = V c main_arg7 (ix2 k q)
  have h : ((cfg1.win 3).blk t).view.emb (ix2 k q) = ix2 k q := by
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  rw [h]

/-- The bias is handed over whole at every point. -/
theorem whole_bias (c : Dev nD) (t : Fin cfg1.N) (q : Fin 128) :
    (iblk1 V c 4 t : Vec Ideal S128 .f32) (ix1 q) = (V c main_arg8 : S128.Idx → Elt Ideal .f32) (ix1 q) := by
  obtain ⟨-, -, -, -, -, -, -, -, e0, -⟩ := index_maps t
  show V c main_arg8 (((cfg1.win 4).blk t).view.emb (ix1 q)) = V c main_arg8 (ix1 q)
  have h : ((cfg1.win 4).blk t).view.emb (ix1 q) = ix1 q := by
    funext a; apply Fin.ext
    match a with
    | ⟨0, _⟩ => show win1_4.index t (0 : Fin 1) * 128 + 1 * q.val = q.val; omega
  rw [h]

/-- What point t writes back is block t of the hidden layer of the entered arrays. -/
theorem written_back (c : Dev nD) (t : Fin cfg1.N) :
    (dat1 V c).flushed 5 t = ((cfg1.win 5).blk t).view.read (Elt Ideal) (entered V c) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S128x128) zero2, View.ld_unit_zero (S := S128) zero1]
  obtain ⟨-, -, -, -, -, -, -, -, -, e0, e1, ht⟩ := index_maps t
  funext j
  obtain ⟨p, q, rfl⟩ : ∃ (p : Fin 5000) (q : Fin 128), j = ix2 p q := ⟨j 0, j 1, eq_ix2 j⟩
  have hp : p.val < 5000 := p.isLt
  obtain ⟨r, hr⟩ : ∃ r : Fin 50000, r.val = 5000 * t.val + p.val := ⟨⟨5000 * t.val + p.val, by omega⟩, rfl⟩
  have hemb : ((cfg1.win 5).blk t).view.emb (ix2 p q) = ix2 r q := by
    funext a; apply Fin.ext
    match a with
    | ⟨0, _⟩ => show win1_5.index t (0 : Fin 2) * 5000 + 1 * p.val = r.val; omega
    | ⟨1, _⟩ => show win1_5.index t (1 : Fin 2) * 128 + 1 * q.val = q.val; omega
  show k1_pay1 (F := Ideal) (iblk1 V c 0 t) (iblk1 V c 1 t) (iblk1 V c 2 t) (iblk1 V c 3 t) (iblk1 V c 4 t) (ix2 p q) = entered V c (((cfg1.win 5).blk t).view.emb (ix2 p q))
  rw [hemb]
  refine (Cert.KernelIdeal.At.body1_at _ _ _ _ _ p q).trans ?_
  refine Eq.trans ?_ (Cert.Sage.At.hidden_at _ _ _ _ _ r q).symm
  refine congrArg (fun z => FloatOps.maximumf z _) ?_
  refine congrArg₂ FloatOps.addf (congrArg₂ FloatOps.addf (Finset.sum_congr rfl fun k _ => ?_) (Finset.sum_congr rfl fun k _ => ?_)) ?_
  · rw [rows_input V c t p k r hr, whole_self V c t k q]
  · rw [rows_means V c t p k r hr, whole_neigh V c t k q]
  · exact whole_bias V c t q

/-- An index of the array is in point t's block iff each coordinate is in the block's range. -/
theorem in_block (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v34).slice (win1_5.rect t)).set ↔ _
  rw [View.set_slice_whole, Rect.mem_set_unit]
  exact Iff.rfl

/-- Every row is in the block of the point its number divided by 5000 names. -/
theorem tiled (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨-, -, -, -, -, -, -, -, -, e0, e1, -⟩ := index_maps t
  have ht : t.val = (i 0).val / 5000 := rfl
  refine ⟨t, flush1_5 t, ?_⟩
  rw [in_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region: the hidden layer of the arrays it was entered with. -/
theorem value (c : Dev nD) : (dat1 V c).arrAt 5 cfg1.N = entered V c :=
  (dat1 V c).arrAt_eq_of_cover 5 (entered V c) (fun t _ => written_back V c t) (tiled)

end Cert.KernelIdeal.Layer1

end
-- ==== Proof.Layer2.lean ====
/- What the third pallas call leaves in its output array.

  The call walks ten grid points. At point t it is handed rows 5000·t … 5000·t + 4999 of the layer's input and of its
  neighbour means (its first two operands), the two weight matrices and the bias whole, and writes back rows
  5000·t … 5000·t + 4999 of the output. The body's value at (p, q) of its block and the last layer's value at
  (5000·t + p, q) of the arrays are the same expression (one layer read at an entry) once the block's rows are read as
  the array's rows: a row block of a product is the product of the row block. The ten blocks tile the 50000 rows, so the
  output array ends holding the last layer of the arrays the call was entered with, whatever those are.
-/
import proofs.«429962_j83227876262250_1_alg».proof.Proof.Gen.KernelIdeal.Frame
import proofs.«429962_j83227876262250_1_alg».proof.Proof.LayerAt
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Layer2

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The index maps over the grid: the two row-tiled operands and the output take block t at point t, the weights and
    the bias always their one block; there are ten points. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0
    ∧ t.val < 10 :=
  (by decide +kernel : ∀ t : Fin grid2.N, _)

/-- The model's last layer of the arrays the region is entered with. -/
abbrev entered (c : Dev nD) : Buf (Elt Ideal) ((c : Thread nD τ).loc main_v47) :=
  Cert.Sage.logits (F := Ideal) (V c main_v34) (V c main_v46) (V c main_arg9) (V c main_arg10) (V c main_arg11)

/-- Row p of block t of the layer's input is row 5000·t + p of the array. -/
theorem rows_input (c : Dev nD) (t : Fin cfg2.N) (p : Fin 5000) (k : Fin 128) (r : Fin 50000) (hr : r.val = 5000 * t.val + p.val) :
    (iblk2 V c 0 t : Vec Ideal S5000x128 .f32) (ix2 p k) = (V c main_v34 : S50000x128.Idx → Elt Ideal .f32) (ix2 r k) := by
  obtain ⟨e0, e1, -⟩ := index_maps t
  show V c main_v34 (((cfg2.win 0).blk t).view.emb (ix2 p k)) = V c main_v34 (ix2 r k)
  have h : ((cfg2.win 0).blk t).view.emb (ix2 p k) = ix2 r k := by
    funext a; apply Fin.ext
    match a with
    | ⟨0, _⟩ => show win2_0.index t (0 : Fin 2) * 5000 + 1 * p.val = r.val; omega
    | ⟨1, _⟩ => show win2_0.index t (1 : Fin 2) * 128 + 1 * k.val = k.val; omega
  rw [h]

/-- Row p of block t of the neighbour means is row 5000·t + p of the array. -/
theorem rows_means (c : Dev nD) (t : Fin cfg2.N) (p : Fin 5000) (k : Fin 128) (r : Fin 50000) (hr : r.val = 5000 * t.val + p.val) :
    (iblk2 V c 1 t : Vec Ideal S5000x128 .f32) (ix2 p k) = (V c main_v46 : S50000x128.Idx → Elt Ideal .f32) (ix2 r k) := by
  obtain ⟨-, -, e0, e1, -⟩ := index_maps t
  show V c main_v46 (((cfg2.win 1).blk t).view.emb (ix2 p k)) = V c main_v46 (ix2 r k)
  have h : ((cfg2.win 1).blk t).view.emb (ix2 p k) = ix2 r k := by
    funext a; apply Fin.ext
    match a with
    | ⟨0, _⟩ => show win2_1.index t (0 : Fin 2) * 5000 + 1 * p.val = r.val; omega
    | ⟨1, _⟩ => show win2_1.index t (1 : Fin 2) * 128 + 1 * k.val = k.val; omega
  rw [h]

/-- The self weights are handed over whole at every point. -/
theorem whole_self (c : Dev nD) (t : Fin cfg2.N) (k : Fin 128) (q : Fin 47) :
    (iblk2 V c 2 t : Vec Ideal S128x47 .f32) (ix2 k q) = (V c main_arg9 : S128x47.Idx → Elt Ideal .f32) (ix2 k q) := by
  obtain ⟨-, -, -, -, e0, e1, -⟩ := index_maps t
  show V c main_arg9 (((cfg2.win 2).blk t).view.emb (ix2 k q)) = V c main_arg9 (ix2 k q)
  have h : ((cfg2.win 2).blk t).view.emb (ix2 k q) = ix2 k q := by
    funext a; apply Fin.ext
    match a with
    | ⟨0, _⟩ => show win2_2.index t (0 : Fin 2) * 128 + 1 * k.val = k.val; omega
    | ⟨1, _⟩ => show win2_2.index t (1 : Fin 2) * 47 + 1 * q.val = q.val; omega
  rw [h]

/-- The neighbour weights are handed over whole at every point. -/
theorem whole_neigh (c : Dev nD) (t : Fin cfg2.N) (k : Fin 128) (q : Fin 47) :
    (iblk2 V c 3 t : Vec Ideal S128x47 .f32) (ix2 k q) = (V c main_arg10 : S128x47.Idx → Elt Ideal .f32) (ix2 k q) := by
  obtain ⟨-, -, -, -, -, -, e0, e1, -⟩ := index_maps t
  show V c main_arg10 (((cfg2.win 3).blk t).view.emb (ix2 k q)) = V c main_arg10 (ix2 k q)
  have h : ((cfg2.win 3).blk t).view.emb (ix2 k q) = ix2 k q := by
    funext a; apply Fin.ext
    match a with
    | ⟨0, _⟩ => show win2_3.index t (0 : Fin 2) * 128 + 1 * k.val = k.val; omega
    | ⟨1, _⟩ => show win2_3.index t (1 : Fin 2) * 47 + 1 * q.val = q.val; omega
  rw [h]

/-- The bias is handed over whole at every point. -/
theorem whole_bias (c : Dev nD) (t : Fin cfg2.N) (q : Fin 47) :
    (iblk2 V c 4 t : Vec Ideal S47 .f32) (ix1 q) = (V c main_arg11 : S47.Idx → Elt Ideal .f32) (ix1 q) := by
  obtain ⟨-, -, -, -, -, -, -, -, e0, -⟩ := index_maps t
  show V c main_arg11 (((cfg2.win 4).blk t).view.emb (ix1 q)) = V c main_arg11 (ix1 q)
  have h : ((cfg2.win 4).blk t).view.emb (ix1 q) = ix1 q := by
    funext a; apply Fin.ext
    match a with
    | ⟨0, _⟩ => show win2_4.index t (0 : Fin 1) * 47 + 1 * q.val = q.val; omega
  rw [h]

/-- What point t writes back is block t of the last layer of the entered arrays. -/
theorem written_back (c : Dev nD) (t : Fin cfg2.N) :
    (dat2 V c).flushed 5 t = ((cfg2.win 5).blk t).view.read (Elt Ideal) (entered V c) := by
  show (cfg2.win 5).cut (grid2.coords t) ((dat2 V c).after 5 t) = _
  rw [after2_5]
  unfold out2_5
  rw [View.canon_unit_zero zero2]
  simp only [View.ld_unit_zero (S := S5000x128) zero2, View.ld_unit_zero (S := S128x47) zero2, View.ld_unit_zero (S := S47) zero1]
  obtain ⟨-, -, -, -, -, -, -, -, -, e0, e1, ht⟩ := index_maps t
  funext j
  obtain ⟨p, q, rfl⟩ : ∃ (p : Fin 5000) (q : Fin 47), j = ix2 p q := ⟨j 0, j 1, eq_ix2 j⟩
  have hp : p.val < 5000 := p.isLt
  obtain ⟨r, hr⟩ : ∃ r : Fin 50000, r.val = 5000 * t.val + p.val := ⟨⟨5000 * t.val + p.val, by omega⟩, rfl⟩
  have hemb : ((cfg2.win 5).blk t).view.emb (ix2 p q) = ix2 r q := by
    funext a; apply Fin.ext
    match a with
    | ⟨0, _⟩ => show win2_5.index t (0 : Fin 2) * 5000 + 1 * p.val = r.val; omega
    | ⟨1, _⟩ => show win2_5.index t (1 : Fin 2) * 47 + 1 * q.val = q.val; omega
  show k2_pay1 (F := Ideal) (iblk2 V c 0 t) (iblk2 V c 1 t) (iblk2 V c 2 t) (iblk2 V c 3 t) (iblk2 V c 4 t) (ix2 p q) = entered V c (((cfg2.win 5).blk t).view.emb (ix2 p q))
  rw [hemb]
  refine (Cert.KernelIdeal.At.body2_at _ _ _ _ _ p q).trans ?_
  refine Eq.trans ?_ (Cert.Sage.At.logits_at _ _ _ _ _ r q).symm
  refine congrArg₂ FloatOps.addf (congrArg₂ FloatOps.addf (Finset.sum_congr rfl fun k _ => ?_) (Finset.sum_congr rfl fun k _ => ?_)) ?_
  · rw [rows_input V c t p k r hr, whole_self V c t k q]
  · rw [rows_means V c t p k r hr, whole_neigh V c t k q]
  · exact whole_bias V c t q

/-- An index of the array is in point t's block iff each coordinate is in the block's range. -/
theorem in_block (t : Fin cfg2.N) (i : S50000x47.Idx) :
    i ∈ ((cfg2.win 5).blk t).view.set ↔ ∀ a : Fin 2, win2_5.index t a * S5000x47.size a ≤ (i a).val ∧ (i a).val < win2_5.index t a * S5000x47.size a + S5000x47.size a := by
  show i ∈ ((View.whole main_v47).slice (win2_5.rect t)).set ↔ _
  rw [View.set_slice_whole, Rect.mem_set_unit]
  exact Iff.rfl

/-- Every row is in the block of the point its number divided by 5000 names. -/
theorem tiled (i : S50000x47.Idx) : ∃ t : Fin cfg2.N, (cfg2.win 5).flush t = true ∧ i ∈ ((cfg2.win 5).blk t).view.set := by
  have hi0 : (i 0).val < 50000 := (i 0).isLt
  have hi1 : (i 1).val < 47 := (i 1).isLt
  let t : Fin cfg2.N := ⟨(i 0).val / 5000, by rw [show cfg2.N = 10 from N_2]; omega⟩
  obtain ⟨-, -, -, -, -, -, -, -, -, e0, e1, -⟩ := index_maps t
  have ht : t.val = (i 0).val / 5000 := rfl
  refine ⟨t, flush2_5 t, ?_⟩
  rw [in_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 47 ≤ (i 1).val ∧ (i 1).val < win2_5.index t (1 : Fin 2) * 47 + 47; omega

/-- The output array after the region: the last layer of the arrays it was entered with. -/
theorem value (c : Dev nD) : (dat2 V c).arrAt 5 cfg2.N = entered V c :=
  (dat2 V c).arrAt_eq_of_cover 5 (entered V c) (fun t _ => written_back V c t) (tiled)

end Cert.KernelIdeal.Layer2

end
-- ==== Proof.Contents.lean ====
/-
  The kernel's program computes the model.

  Its run passes six boundaries: a host stretch, the first pallas call, a host stretch, the second call, a host stretch,
  the third call. At each boundary every buffer's contents are a function of the launch memory, and the result array is
  read at the last one. Walking forward:
    * the first stretch leaves the reciprocal-degree column in one buffer and the neighbour mean of the features in
      another, and writes no argument;
    * the first call leaves the first hidden layer in its output array (the layer of the arrays it was entered with) and
      touches nothing else the later steps read;
    * the second stretch computes the neighbour mean of that array from the same index arrays and the same column,
      which it finds where the first stretch left them; the second call leaves the second hidden layer;
    * the third stretch and call do the same once more, with the last layer.
  What a stretch does not write it leaves, what a call does not own it leaves, and the three aggregations are one
  function applied to three arrays, never opened here.
-/
import proofs.«429962_j83227876262250_1_alg».proof.Proof.KernelRun
import proofs.«429962_j83227876262250_1_alg».proof.Proof.Layer0
import proofs.«429962_j83227876262250_1_alg».proof.Proof.Layer1
import proofs.«429962_j83227876262250_1_alg».proof.Proof.Layer2
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen

/-- No operation of the named host stretch writes the buffer: its contents pass through. -/
macro "kept_by " ops:ident : tactic => `(tactic| exact StableHlo.after_of_forall_not_mem _ _ (List.forall_iff_forall_mem.mp (by
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

variable (m : (ℓ : Loc nD τ sig) → Buf (Elt Ideal) ℓ) (ρ : Dev nD → PrngReg)

/-- The model of the twelve argument arrays as the program is launched with them. -/
abbrev answer (c : Dev nD) : Buf (Elt Ideal) ((c : Thread nD τ).loc main_v47) :=
  Cert.Sage.sage (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-! ## After the first stretch -/

/-- The first stretch writes none of the twelve arguments: each still holds what the program was launched with. -/
theorem first_stretch_keeps (c : Dev nD) (b : Ref sig .tc)
    (hb : b ∈ ([main_arg0, main_arg1, main_arg2, main_arg3, main_arg4, main_arg5, main_arg6, main_arg7, main_arg8, main_arg9, main_arg10, main_arg11] : List (Ref sig .tc))) :
    W1 m ρ c (Proc.devRef .tc b) = m ((c : Thread nD τ).loc b) := by
  refine Eq.trans (?_ : W1 m ρ c (Proc.devRef .tc b) = W0 m ρ c (Proc.devRef .tc b)) rfl
  simp only [List.mem_cons, List.mem_singleton, List.not_mem_nil, or_false] at hb
  rcases hb with rfl | rfl | rfl | rfl | rfl | rfl | rfl | rfl | rfl | rfl | rfl | rfl <;> kept_by hostOps0

/-- The first stretch leaves the reciprocal-degree column of the destination indices. -/
theorem W1_col (c : Dev nD) : W1 m ρ c (Proc.devRef .tc main_v8) = Cert.Sage.invDeg (F := Ideal) (m ((c : Thread nD τ).loc main_arg2)) := by
  show StableHlo.after hostOps0 (W0 m ρ c) (Proc.devRef .tc main_v8) = _
  unfold Cert.Sage.invDeg
  after_results
  rfl

set_option maxHeartbeats 4000000 in
/-- The first stretch leaves the neighbour mean of the features. -/
theorem W1_mean (c : Dev nD) : W1 m ρ c (Proc.devRef .tc main_v20) = Cert.Sage.aggregate (F := Ideal) (m ((c : Thread nD τ).loc main_arg0)) (m ((c : Thread nD τ).loc main_arg1)) (m ((c : Thread nD τ).loc main_arg2)) := by
  show StableHlo.after hostOps0 (W0 m ρ c) (Proc.devRef .tc main_v20) = _
  unfold Cert.Sage.aggregate Cert.Sage.aggregateBy Cert.Sage.invDeg
  after_results_simp
  rfl

/-! ## After the first call -/

/-- The first call owns neither index array, nor the column, nor a later layer's weights or bias. -/
theorem first_call_keeps (c : Dev nD) (b : Ref sig .tc)
    (hb : b ∈ ([main_arg1, main_arg2, main_v8, main_arg6, main_arg7, main_arg8, main_arg9, main_arg10, main_arg11] : List (Ref sig .tc))) :
    W2 m ρ c (Proc.devRef .tc b) = W1 m ρ c (Proc.devRef .tc b) := by
  simp only [List.mem_cons, List.mem_singleton, List.not_mem_nil, or_false] at hb
  rcases hb with rfl | rfl | rfl | rfl | rfl | rfl | rfl | rfl | rfl <;> exact W2_of_ne m ρ c _ (by decide)

/-- Its output array holds the first hidden layer. -/
theorem W2_hidden (c : Dev nD) : W2 m ρ c (Proc.devRef .tc main_v21) = (Cert.Sage.sageH1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W2_arr m ρ c 5).trans ?_
  rw [Cert.KernelIdeal.Layer0.value (V1 m ρ) c]
  show Cert.Sage.hidden (F := Ideal) (W1 m ρ c (Proc.devRef .tc main_arg0)) (W1 m ρ c (Proc.devRef .tc main_v20)) (W1 m ρ c (Proc.devRef .tc main_arg3)) (W1 m ρ c (Proc.devRef .tc main_arg4)) (W1 m ρ c (Proc.devRef .tc main_arg5)) = _
  rw [first_stretch_keeps m ρ c main_arg0 (by decide), W1_mean, first_stretch_keeps m ρ c main_arg3 (by decide), first_stretch_keeps m ρ c main_arg4 (by decide), first_stretch_keeps m ρ c main_arg5 (by decide)]
  rfl

/-- An index array or a later layer's weights or bias still holds what the program was launched with. -/
theorem W2_launched (c : Dev nD) (b : Ref sig .tc)
    (hb : b ∈ ([main_arg1, main_arg2, main_arg6, main_arg7, main_arg8, main_arg9, main_arg10, main_arg11] : List (Ref sig .tc))) :
    W2 m ρ c (Proc.devRef .tc b) = m ((c : Thread nD τ).loc b) := by
  simp only [List.mem_cons, List.mem_singleton, List.not_mem_nil, or_false] at hb
  rcases hb with rfl | rfl | rfl | rfl | rfl | rfl | rfl | rfl <;>
    exact (first_call_keeps m ρ c _ (by decide)).trans (first_stretch_keeps m ρ c _ (by decide))

/-- The column is where the first stretch left it. -/
theorem W2_col (c : Dev nD) : W2 m ρ c (Proc.devRef .tc main_v8) = Cert.Sage.invDeg (F := Ideal) (m ((c : Thread nD τ).loc main_arg2)) :=
  (first_call_keeps m ρ c main_v8 (by decide)).trans (W1_col m ρ c)

/-! ## After the second stretch -/

/-- The second stretch writes neither the first hidden layer, nor an index array, nor the column, nor a later weight or bias. -/
theorem second_stretch_keeps (c : Dev nD) (b : Ref sig .tc)
    (hb : b ∈ ([main_v21, main_arg1, main_arg2, main_v8, main_arg6, main_arg7, main_arg8, main_arg9, main_arg10, main_arg11] : List (Ref sig .tc))) :
    W3 m ρ c (Proc.devRef .tc b) = W2 m ρ c (Proc.devRef .tc b) := by
  simp only [List.mem_cons, List.mem_singleton, List.not_mem_nil, or_false] at hb
  rcases hb with rfl | rfl | rfl | rfl | rfl | rfl | rfl | rfl | rfl | rfl <;> kept_by hostOps1

set_option maxHeartbeats 4000000 in
/-- It leaves the neighbour mean of the first hidden layer. -/
theorem W3_mean (c : Dev nD) : W3 m ρ c (Proc.devRef .tc main_v33) = Cert.Sage.aggregate (F := Ideal) (Cert.Sage.sageH1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  have e : W3 m ρ c (Proc.devRef .tc main_v33) = Cert.Sage.aggregateBy (F := Ideal) (W2 m ρ c (Proc.devRef .tc main_v21)) (W2 m ρ c (Proc.devRef .tc main_arg1)) (W2 m ρ c (Proc.devRef .tc main_arg2)) (W2 m ρ c (Proc.devRef .tc main_v8)) := by
    show StableHlo.after hostOps1 (W2 m ρ c) (Proc.devRef .tc main_v33) = _
    unfold Cert.Sage.aggregateBy
    after_results_simp
    rfl
  rw [e, W2_hidden, W2_launched m ρ c main_arg1 (by decide), W2_launched m ρ c main_arg2 (by decide), W2_col]
  rfl

/-- An index array or a later weight or bias still holds what the program was launched with. -/
theorem W3_launched (c : Dev nD) (b : Ref sig .tc)
    (hb : b ∈ ([main_arg1, main_arg2, main_arg6, main_arg7, main_arg8, main_arg9, main_arg10, main_arg11] : List (Ref sig .tc))) :
    W3 m ρ c (Proc.devRef .tc b) = m ((c : Thread nD τ).loc b) := by
  simp only [List.mem_cons, List.mem_singleton, List.not_mem_nil, or_false] at hb
  rcases hb with rfl | rfl | rfl | rfl | rfl | rfl | rfl | rfl <;>
    exact (second_stretch_keeps m ρ c _ (by decide)).trans (W2_launched m ρ c _ (by decide))

theorem W3_col (c : Dev nD) : W3 m ρ c (Proc.devRef .tc main_v8) = Cert.Sage.invDeg (F := Ideal) (m ((c : Thread nD τ).loc main_arg2)) :=
  (second_stretch_keeps m ρ c main_v8 (by decide)).trans (W2_col m ρ c)

theorem W3_hidden (c : Dev nD) : W3 m ρ c (Proc.devRef .tc main_v21) = (Cert.Sage.sageH1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (second_stretch_keeps m ρ c main_v21 (by decide)).trans (W2_hidden m ρ c)

/-! ## After the second call -/

/-- The second call owns neither index array, nor the column, nor the last layer's weights or bias. -/
theorem second_call_keeps (c : Dev nD) (b : Ref sig .tc)
    (hb : b ∈ ([main_arg1, main_arg2, main_v8, main_arg9, main_arg10, main_arg11] : List (Ref sig .tc))) :
    W4 m ρ c (Proc.devRef .tc b) = W3 m ρ c (Proc.devRef .tc b) := by
  simp only [List.mem_cons, List.mem_singleton, List.not_mem_nil, or_false] at hb
  rcases hb with rfl | rfl | rfl | rfl | rfl | rfl <;> exact W4_of_ne m ρ c _ (by decide)

/-- Its output array holds the second hidden layer. -/
theorem W4_hidden (c : Dev nD) : W4 m ρ c (Proc.devRef .tc main_v34) = (Cert.Sage.sageH2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W4_arr m ρ c 5).trans ?_
  rw [Cert.KernelIdeal.Layer1.value (V3 m ρ) c]
  show Cert.Sage.hidden (F := Ideal) (W3 m ρ c (Proc.devRef .tc main_v21)) (W3 m ρ c (Proc.devRef .tc main_v33)) (W3 m ρ c (Proc.devRef .tc main_arg6)) (W3 m ρ c (Proc.devRef .tc main_arg7)) (W3 m ρ c (Proc.devRef .tc main_arg8)) = _
  rw [W3_hidden, W3_mean, W3_launched m ρ c main_arg6 (by decide), W3_launched m ρ c main_arg7 (by decide), W3_launched m ρ c main_arg8 (by decide)]
  rfl

theorem W4_launched (c : Dev nD) (b : Ref sig .tc)
    (hb : b ∈ ([main_arg1, main_arg2, main_arg9, main_arg10, main_arg11] : List (Ref sig .tc))) :
    W4 m ρ c (Proc.devRef .tc b) = m ((c : Thread nD τ).loc b) := by
  simp only [List.mem_cons, List.mem_singleton, List.not_mem_nil, or_false] at hb
  rcases hb with rfl | rfl | rfl | rfl | rfl <;>
    exact (second_call_keeps m ρ c _ (by decide)).trans (W3_launched m ρ c _ (by decide))

theorem W4_col (c : Dev nD) : W4 m ρ c (Proc.devRef .tc main_v8) = Cert.Sage.invDeg (F := Ideal) (m ((c : Thread nD τ).loc main_arg2)) :=
  (second_call_keeps m ρ c main_v8 (by decide)).trans (W3_col m ρ c)

/-! ## After the third stretch -/

/-- The third stretch writes neither the second hidden layer nor the last layer's weights or bias. -/
theorem third_stretch_keeps (c : Dev nD) (b : Ref sig .tc)
    (hb : b ∈ ([main_v34, main_arg9, main_arg10, main_arg11] : List (Ref sig .tc))) :
    W5 m ρ c (Proc.devRef .tc b) = W4 m ρ c (Proc.devRef .tc b) := by
  simp only [List.mem_cons, List.mem_singleton, List.not_mem_nil, or_false] at hb
  rcases hb with rfl | rfl | rfl | rfl <;> kept_by hostOps2

set_option maxHeartbeats 4000000 in
/-- It leaves the neighbour mean of the second hidden layer. -/
theorem W5_mean (c : Dev nD) : W5 m ρ c (Proc.devRef .tc main_v46) = Cert.Sage.aggregate (F := Ideal) (Cert.Sage.sageH2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg2)) := by
  have e : W5 m ρ c (Proc.devRef .tc main_v46) = Cert.Sage.aggregateBy (F := Ideal) (W4 m ρ c (Proc.devRef .tc main_v34)) (W4 m ρ c (Proc.devRef .tc main_arg1)) (W4 m ρ c (Proc.devRef .tc main_arg2)) (W4 m ρ c (Proc.devRef .tc main_v8)) := by
    show StableHlo.after hostOps2 (W4 m ρ c) (Proc.devRef .tc main_v46) = _
    unfold Cert.Sage.aggregateBy
    after_results_simp
    rfl
  rw [e, W4_hidden, W4_launched m ρ c main_arg1 (by decide), W4_launched m ρ c main_arg2 (by decide), W4_col]
  rfl

theorem W5_launched (c : Dev nD) (b : Ref sig .tc)
    (hb : b ∈ ([main_arg9, main_arg10, main_arg11] : List (Ref sig .tc))) :
    W5 m ρ c (Proc.devRef .tc b) = m ((c : Thread nD τ).loc b) := by
  simp only [List.mem_cons, List.mem_singleton, List.not_mem_nil, or_false] at hb
  rcases hb with rfl | rfl | rfl <;>
    exact (third_stretch_keeps m ρ c _ (by decide)).trans (W4_launched m ρ c _ (by decide))

theorem W5_hidden (c : Dev nD) : W5 m ρ c (Proc.devRef .tc main_v34) = (Cert.Sage.sageH2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (third_stretch_keeps m ρ c main_v34 (by decide)).trans (W4_hidden m ρ c)

/-! ## After the third call: the result -/

/-- The result array holds the model of the twelve argument arrays. -/
theorem result (c : Dev nD) : W6 m ρ c (Proc.devRef .tc main_v47) = answer m c := by
  refine (W6_arr m ρ c 5).trans ?_
  rw [Cert.KernelIdeal.Layer2.value (V5 m ρ) c]
  show Cert.Sage.logits (F := Ideal) (W5 m ρ c (Proc.devRef .tc main_v34)) (W5 m ρ c (Proc.devRef .tc main_v46)) (W5 m ρ c (Proc.devRef .tc main_arg9)) (W5 m ρ c (Proc.devRef .tc main_arg10)) (W5 m ρ c (Proc.devRef .tc main_arg11)) = _
  rw [W5_hidden, W5_mean, W5_launched m ρ c main_arg9 (by decide), W5_launched m ρ c main_arg10 (by decide), W5_launched m ρ c main_arg11 (by decide)]
  rfl

end Cert.KernelIdeal.Whole

end
-- ==== Proof.Reference.lean ====
/-
  The reference program computes the model.

  Its run ends with the result array at one composed term of the twelve argument arrays. Read from the inside out that
  term is: the reciprocal-degree column of the destination indices; the neighbour mean of the features; a hidden layer;
  the same two steps again on that layer's output; and the last layer on the second hidden layer's output and its own
  neighbour mean. Those are the model's functions applied in the model's order, so the two terms are one.
-/
import proofs.«429962_j83227876262250_1_alg».proof.Proof.Gen.ReferenceIdeal.Run
import proofs.«429962_j83227876262250_1_alg».proof.Proof.Model

noncomputable section

open Idealize.ShloMosaic Idealize.ShloMosaic.TcCoe Idealize.SL.Sem

namespace Cert.Sage.Ref

open Cert.ReferenceIdeal Cert.ReferenceIdeal.Facts₀ Cert.ReferenceIdeal.Facts Cert.ReferenceIdeal.Value

variable {F : FTy → Type} [FloatOps F]

set_option maxRecDepth 16384 in
/-- The result term of the reference's run is the model of its argument arrays. -/
theorem result_eq (m : (ℓ : Loc nD τ sig) → Buf (Elt F) ℓ) (c : Dev nD) :
    res_main_v64 (F := F) m c
      = (Cert.Sage.sage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) : Buf (Elt F) ((c.tc : Thread nD τ).loc main_v64)) := by
  unfold res_main_v64 Cert.Sage.sage Cert.Sage.sageH2 Cert.Sage.sageH1 Cert.Sage.hidden Cert.Sage.logits Cert.Sage.affine128 Cert.Sage.aggregate Cert.Sage.aggregateBy Cert.Sage.invDeg
  rfl

end Cert.Sage.Ref

end
-- ==== Proof.lean ====
/-
  Three GraphSAGE layers computed by three pallas calls, against the same three layers computed on the host.

  Both programs first count each node's incoming edges, clamp the count below at one and take the reciprocal; then,
  three times over, gather the current features along the edges' sources, add them up at the edges' destinations, scale
  each row by that reciprocal, and form  h·Ws + mean·Wn + b, with a maximum against zero after the first two. The host
  program does the two matrix products on the whole 50000-row arrays. The kernel program hands them to a pallas call that
  walks the rows 5000 at a time, narrowing every operand to a shorter float format before multiplying.

  Over the extended reals the narrowing changes nothing, and a row block of a matrix product is the product of the row
  block, so each call leaves in its output array exactly the layer of the arrays it was entered with. Everything outside
  the calls, the degree column and the three gather-and-add steps, is the same host computation in both programs applied
  to arrays already shown equal, and is carried as one function that is never opened. So both programs end with the model
  of their twelve arguments, and the arguments agree.

  The kernel's frames are the generated ones. The reference has no kernel: its frame is its run with the result dropped.
  The idealization rewrote no operation, so there is nothing to preserve.
-/
import proofs.«429962_j83227876262250_1_alg».proof.Defs
import proofs.«429962_j83227876262250_1_alg».proof.Proof.Gen.Kernel
import proofs.«429962_j83227876262250_1_alg».proof.Proof.Gen.Kernel.Frame
import proofs.«429962_j83227876262250_1_alg».proof.Proof.Gen.KernelIdeal
import proofs.«429962_j83227876262250_1_alg».proof.Proof.Gen.KernelIdeal.Frame
import proofs.«429962_j83227876262250_1_alg».proof.Proof.Gen.ReferenceIdeal
import proofs.«429962_j83227876262250_1_alg».proof.Proof.Gen.ReferenceIdeal.Run
import proofs.«429962_j83227876262250_1_alg».proof.Proof.Gen.Pre_finite_inputs
import proofs.«429962_j83227876262250_1_alg».proof.Proof.Contents
import proofs.«429962_j83227876262250_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Both programs end with the model of their argument arrays, and those agree. -/
theorem algebraic : Cert.algebraic_KernelIdeal_ReferenceIdeal := by
  intro m ρ m' ρ' _ hagree
  refine ⟨fun c => Cert.KernelIdeal.Whole.answer m c, ?_, ?_⟩
  · exact (θ_run Cert.KernelIdeal.defs _ _).mono (fun r h c => ⟨(h c).1.trans (Cert.KernelIdeal.Whole.result m ρ c), (h c).2⟩)
      (Cert.KernelIdeal.Whole.run_main m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.Sage.Ref.result_eq, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
